-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4x4096x4096 : Shape := ⟨3, ![4, 4096, 4096]⟩
abbrev S4 : Shape := ⟨1, ![4]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4x4096x4096 : S_.BroadcastsInDim S4x4096x4096 (![] : Fin 0 → Fin S4x4096x4096.rank)
  reducesTo_S4x4096x4096_S_d0_1_2 : S4x4096x4096.ReducesTo [0, 1, 2] S_
  bcast_S_S4 : S_.BroadcastsInDim S4 (![] : Fin 0 → Fin S4.rank)
  reducesTo_S4_S_d0 : S4.ReducesTo [0] S_

variable [Facts]

def fn {F : FTy → Type} [FloatOps F] (main_arg0 : FVec F S4096x256 .f32) (main_arg1 : FVec F S4x4096x4096 .f32) (main_arg2 : FVec F S4 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4x4096x4096 .f32 := Host.absf main_arg1
  let main_cst_0 : FVec F S_ .f32 := constant S_ .f32 0x7F800000#32
  let main_v5 : FVec F S4x4096x4096 .f32 := broadcastInDim S4x4096x4096 ![] bcast_S_S4x4096x4096 main_cst_0
  let main_v6 : IVec S4x4096x4096 1 := cmpf .olt main_v4 main_v5
  let main_c_1 : IVec S_ 1 := constantI S_ 1 1#1
  let main_v7 : IVec S_ 1 := (fun x v => Host.reduce IntOp.andi x v reducesTo_S4x4096x4096_S_d0_1_2 h_S_) main_v6 main_c_1
  let main_v8 : IVec S_ 1 := andi main_v3 main_v7
  let main_v9 : FVec F S4 .f32 := Host.absf main_arg2
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  main_v13
-- ==== Kernel.lean ====
abbrev S4096x256 : Shape := ⟨2, ![4096, 256]⟩
abbrev S4x4096x4096 : Shape := ⟨3, ![4, 4096, 4096]⟩
abbrev S4 : Shape := ⟨1, ![4]⟩
abbrev S1x4 : Shape := ⟨2, ![1, 4]⟩
abbrev S4x128x4096 : Shape := ⟨3, ![4, 128, 4096]⟩
abbrev S128x256 : Shape := ⟨2, ![128, 256]⟩
abbrev S1x1 : Shape := ⟨2, ![1, 1]⟩
abbrev S1x128x4096 : Shape := ⟨3, ![1, 128, 4096]⟩
abbrev S128x4096 : Shape := ⟨2, ![128, 4096]⟩

abbrev nBuf : Space → Nat
  | .hbm => 5
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4x4096x4096, .f32⟩
  | .hbm, ⟨2, _⟩ => ⟨S4, .f32⟩
  | .hbm, ⟨3, _⟩ => ⟨S1x4, .f32⟩
  | .hbm, ⟨4, _⟩ => ⟨S4096x256, .f32⟩
  | .local _ .vmem, ⟨0, _⟩ => ⟨S1x4, .f32⟩
  | .local _ .vmem, ⟨1, _⟩ => ⟨S4x128x4096, .f32⟩
  | .local _ .vmem, ⟨2, _⟩ => ⟨S4x128x4096, .f32⟩
  | .local _ .vmem, ⟨3, _⟩ => ⟨S4096x256, .f32⟩
  | .local _ .vmem, ⟨4, _⟩ => ⟨S128x256, .f32⟩
  | .local _ .vmem, ⟨5, _⟩ => ⟨S128x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4_S1x4 : S4.ShapeCasts S1x4
  inb_S1x4_S1x1_0_0 : ∀ a, (![0, 0] : Fin 2 → Nat) a + S1x1.size a ≤ S1x4.size a
  h_S1x1 : 0 < S1x1.numel
  inpos_S1x1_p0_0 : ∀ a, (![0, 0] : Fin 2 → Nat) a < S1x1.size a
  inb_S4x128x4096_S1x128x4096_0_0_0 : ∀ a, (![0, 0, 0] : Fin 3 → Nat) a + S1x128x4096.size a ≤ S4x128x4096.size a
  h_S1x128x4096 : 0 < S1x128x4096.numel
  shapeCasts_S1x128x4096_S128x4096 : S1x128x4096.ShapeCasts S128x4096
  inb_S1x4_S1x1_0_1 : ∀ a, (![0, 1] : Fin 2 → Nat) a + S1x1.size a ≤ S1x4.size a
  inb_S4x128x4096_S1x128x4096_1_0_0 : ∀ a, (![1, 0, 0] : Fin 3 → Nat) a + S1x128x4096.size a ≤ S4x128x4096.size a
  inb_S1x4_S1x1_0_2 : ∀ a, (![0, 2] : Fin 2 → Nat) a + S1x1.size a ≤ S1x4.size a
  inb_S4x128x4096_S1x128x4096_2_0_0 : ∀ a, (![2, 0, 0] : Fin 3 → Nat) a + S1x128x4096.size a ≤ S4x128x4096.size a
  inb_S1x4_S1x1_0_3 : ∀ a, (![0, 3] : Fin 2 → Nat) a + S1x1.size a ≤ S1x4.size a
  inb_S4x128x4096_S1x128x4096_3_0_0 : ∀ a, (![3, 0, 0] : Fin 3 → Nat) a + S1x128x4096.size a ≤ S4x128x4096.size a
  inb_S4096x256_S4096x256_0_0 : ∀ a, (![0, 0] : Fin 2 → Nat) a + S4096x256.size a ≤ S4096x256.size a
  h_S4096x256 : 0 < S4096x256.numel
  inb_S128x256_S128x256_0_0 : ∀ a, (![0, 0] : Fin 2 → Nat) a + S128x256.size a ≤ S128x256.size a
  h_S128x256 : 0 < S128x256.numel
  dot_S128x4096_S4096x256_S128x256_1_0_0_1_n_n_wf : DotDims.WF S128x4096 S4096x256 S128x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x4.size a ≤ S1x4.size a
  hwx0_0 : ∀ i : grid0.Coords, EltTy.bits .f32 = 32 ∨ (Rect.block (s := S1x4) S1x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x128x4096.size a ≤ S4x4096x4096.size a
  hwx0_1 : ∀ i : grid0.Coords, EltTy.bits .f32 = 32 ∨ (Rect.block (s := S4x4096x4096) S4x128x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S4096x256.size a
  hwx0_2 : ∀ i : grid0.Coords, EltTy.bits .f32 = 32 ∨ (Rect.block (s := S4096x256) S4096x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S4096x256.size a
  hwx0_3 : ∀ i : grid0.Coords, EltTy.bits .f32 = 32 ∨ (Rect.block (s := S4096x256) S128x256.size (cc0_transform_3 i) (hinb0_3 i)).WholeWords (EltTy.packing .f32)

variable [Facts₀]

def dot_S128x4096_S4096x256_S128x256_1_0_0_1_n_n : DotDims S128x4096 S4096x256 S128x256 where
  lhsContracting := [1]
  rhsContracting := [0]
  lhsNonContracting := [0]
  rhsNonContracting := [1]
  lhsBatch := []
  rhsBatch := []
  wf := dot_S128x4096_S4096x256_S128x256_1_0_0_1_n_n_wf

abbrev win0_0 : Pipeline.Window sig grid0 :=
  Pipeline.Window.ofSpec (Memref.whole main_call0_v0) S1x4.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4096x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x256 : Shape := ⟨2, ![4096, 256]⟩
abbrev S4x4096x4096 : Shape := ⟨3, ![4, 4096, 4096]⟩
abbrev S4 : Shape := ⟨1, ![4]⟩
abbrev S1x4096x4096 : Shape := ⟨3, ![1, 4096, 4096]⟩
abbrev S4096x4096 : Shape := ⟨2, ![4096, 4096]⟩
abbrev S_ : Shape := ⟨0, ![]⟩
abbrev S1 : Shape := ⟨1, ![1]⟩

abbrev nBuf : Space → Nat
  | .hbm => 36
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4x4096x4096, .f32⟩
  | .hbm, ⟨2, _⟩ => ⟨S4, .f32⟩
  | .hbm, ⟨3, _⟩ => ⟨S1x4096x4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S1, .f32⟩
  | .hbm, ⟨8, _⟩ => ⟨S_, .f32⟩
  | .hbm, ⟨9, _⟩ => ⟨S1x4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S1, .f32⟩
  | .hbm, ⟨15, _⟩ => ⟨S_, .f32⟩
  | .hbm, ⟨16, _⟩ => ⟨S1x4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S1, .f32⟩
  | .hbm, ⟨22, _⟩ => ⟨S_, .f32⟩
  | .hbm, ⟨23, _⟩ => ⟨S1x4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S1, .f32⟩
  | .hbm, ⟨29, _⟩ => ⟨S_, .f32⟩
  | .hbm, ⟨30, _⟩ => ⟨S1x4096x4096, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩

abbrev nD : Nat := 1
abbrev τ : Topo := Topo.v7x

variable {F : FTy → Type} [FloatOps F]

class Facts₀ : Prop where
  slices_S4x4096x4096_S1x4096x4096_0_0_0 : S4x4096x4096.Slices ![0, 0, 0] S1x4096x4096
  shapeCasts_S1x4096x4096_S4096x4096 : S1x4096x4096.ShapeCasts S4096x4096
  bcast_S_S4096x4096 : S_.BroadcastsInDim S4096x4096 (![] : Fin 0 → Fin S4096x4096.rank)
  slices_S4_S1_0 : S4.Slices ![0] S1
  shapeCasts_S1_S_ : S1.ShapeCasts S_
  slices_S4_S1_1 : S4.Slices ![1] S1
  slices_S4x4096x4096_S1x4096x4096_1_0_0 : S4x4096x4096.Slices ![1, 0, 0] S1x4096x4096
  slices_S4_S1_2 : S4.Slices ![2] S1
  slices_S4x4096x4096_S1x4096x4096_2_0_0 : S4x4096x4096.Slices ![2, 0, 0] S1x4096x4096
  slices_S4_S1_3 : S4.Slices ![3] S1
  slices_S4x4096x4096_S1x4096x4096_3_0_0 : S4x4096x4096.Slices ![3, 0, 0] S1x4096x4096
  dot_S4096x4096_S4096x256_S4096x256_1_0_0_1_n_n_wf : DotDims.WF S4096x4096 S4096x256 S4096x256 [1] [0] [0] [1] [] []

variable [Facts₀]

def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf

class Facts : Prop extends Facts₀ where

variable [Facts]
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.BodyAt.lean ====
/-
  The kernel body's one stored value, read at an entry.

  At a grid point the body loads the four weights (each a 1 × 1 piece of the 1 × 4 weight block), the four
  128 × 4096 slabs of the matrix stack's row band, and all of `x`; it forms the weighted combination of the slabs,
  weight times slab added left to right, and multiplies the result by `x` on the matrix unit into a zero accumulator.
  On the extended reals that product at row `p` and column `q` is the sum over `a : Fin 4096` of the combined slab at
  `(p, a)` times `x (a, q)`. The matrix product's dimension numbers enter through four coordinate facts only.
-/
import proofs.«171024_g45509473469006_cont_8to1_b_1896_15_alg».proof.Proof.Gen.KernelIdeal.Skeleton
import proofs.«171024_g45509473469006_cont_8to1_b_1896_15_alg».proof.Proof.LibDot2
import Idealize.ShloMosaic.Lib.ValueLayout

noncomputable section

namespace Cert.KernelIdeal.BodyAt

open Cert.KernelIdeal Cert.KernelIdeal.Gen Idealize.ShloMosaic Idealize.ShloMosaic.ValueIdx

/-! ## Which coordinate of each operand the product's output and contraction indices give -/

/-- The left operand's row is the output's row. -/
theorem lhs_axis0 (i : S128x256.Idx) (q : dot_S128x4096_S4096x256_S128x256_1_0_0_1_n_n.contr.Idx) :
    (dot_S128x4096_S4096x256_S128x256_1_0_0_1_n_n.lhsIdx i q 0).val = (i 0).val := by
  unfold DotDims.lhsIdx
  rw [dif_neg (show ¬(0 : Fin S128x4096.rank) ∈ dot_S128x4096_S4096x256_S128x256_1_0_0_1_n_n.lhsBatch by decide), dif_pos (show (0 : Fin S128x4096.rank) ∈ dot_S128x4096_S4096x256_S128x256_1_0_0_1_n_n.lhsNonContracting by decide)]
  rfl

/-- The left operand's column is the contracted index. -/
theorem lhs_axis1 (i : S128x256.Idx) (q : dot_S128x4096_S4096x256_S128x256_1_0_0_1_n_n.contr.Idx) :
    (dot_S128x4096_S4096x256_S128x256_1_0_0_1_n_n.lhsIdx i q 1).val = (q ⟨0, by decide⟩).val :=
  dot_S128x4096_S4096x256_S128x256_1_0_0_1_n_n.lhsIdx_val_of_single rfl i q

/-- The right operand's row is the contracted index. -/
theorem rhs_axis0 (i : S128x256.Idx) (q : dot_S128x4096_S4096x256_S128x256_1_0_0_1_n_n.contr.Idx) :
    (dot_S128x4096_S4096x256_S128x256_1_0_0_1_n_n.rhsIdx i q 0).val = (q ⟨0, by decide⟩).val :=
  dot_S128x4096_S4096x256_S128x256_1_0_0_1_n_n.rhsIdx_val_of_single rfl i q

/-- The right operand's column is the output's column. -/
theorem rhs_axis1 (i : S128x256.Idx) (q : dot_S128x4096_S4096x256_S128x256_1_0_0_1_n_n.contr.Idx) :
    (dot_S128x4096_S4096x256_S128x256_1_0_0_1_n_n.rhsIdx i q 1).val = (i 1).val := by
  unfold DotDims.rhsIdx
  rw [dif_neg (show ¬(1 : Fin S4096x256.rank) ∈ dot_S128x4096_S4096x256_S128x256_1_0_0_1_n_n.rhsBatch by decide), dif_pos (show (1 : Fin S4096x256.rank) ∈ dot_S128x4096_S4096x256_S128x256_1_0_0_1_n_n.rhsNonContracting by decide)]
  rfl

/-! ## The body's value at an entry -/

/-- Extracting position `[0, 0]` of a 1 × 1 piece reads its one entry. -/
theorem extract_one {α : Type} (v : S1x1.Idx → α) (h : ∀ a, (![0, 0] : Fin 2 → Nat) a < S1x1.size a) :
    extractAt ![0, 0] v h = v (ix2 (0 : Fin 1) (0 : Fin 1)) := by
  unfold extractAt
  refine congrArg v (funext fun a => Fin.ext ?_)
  match a with
  | ⟨0, _⟩ => rfl
  | ⟨1, _⟩ => rfl

/-- The stored value at `(p, q)`: the sum over `a` of the weighted combination of the four slabs at `(p, a)` times
    `x (a, q)`. Here `w k` is the 1 × 1 piece holding weight `k`, `s k` the slab of matrix `k` with its leading unit axis. -/
theorem pay_at (w0 w1 w2 w3 : FVec Ideal S1x1 .f32) (s0 s1 s2 s3 : FVec Ideal S1x128x4096 .f32)
    (xv : FVec Ideal S4096x256 .f32) (p : Fin 128) (q : Fin 256) :
    k0_pay1 (F := Ideal) w0 s0 w1 s1 w2 s2 w3 s3 xv (ix2 p q)
      = ∑ a : Fin 4096, (w0 (ix2 (0 : Fin 1) (0 : Fin 1)) * s0 (ix3 (0 : Fin 1) p a)
          + w1 (ix2 (0 : Fin 1) (0 : Fin 1)) * s1 (ix3 (0 : Fin 1) p a)
          + w2 (ix2 (0 : Fin 1) (0 : Fin 1)) * s2 (ix3 (0 : Fin 1) p a)
          + w3 (ix2 (0 : Fin 1) (0 : Fin 1)) * s3 (ix3 (0 : Fin 1) p a)) * xv (ix2 a q) := by
  unfold k0_pay1
  refine (Cert.Lib.Dot2.matmul_zero_ix2 dot_S128x4096_S4096x256_S128x256_1_0_0_1_n_n none rfl rfl lhs_axis0 lhs_axis1 rhs_axis0 rhs_axis1 _ _ p q).trans ?_
  refine Finset.sum_congr rfl fun a _ => ?_
  refine congrArg (· * xv (ix2 a q)) ?_
  simp only [addf_apply, mulf_apply, broadcast_apply, shapeCast_1ab_ab_apply, extract_one]

end Cert.KernelIdeal.BodyAt

end
-- ==== Proof.Filter.lean ====
/-
  The graph-filter output as one function of the three argument arrays.

  With `S` a stack of four 4096 × 4096 matrices, `h` four weights and `x` a 4096 × 256 matrix, the output at row `r`
  and column `d` is the sum over `n` of `H (r, n) * x (n, d)`, where `H (r, n)` is the weighted combination
  `h 0 * S (0, r, n) + h 1 * S (1, r, n) + h 2 * S (2, r, n) + h 3 * S (3, r, n)`, added left to right. Everything is
  read on the extended reals; no law beyond the ones of `+` and `*` there is used, so nothing here needs the entries
  to be finite.
-/
import Idealize.ShloMosaic.Lib.ValueIdx
import Idealize.ShloMosaic.PureOps.Ideal

noncomputable section

namespace Cert.Filter

open Idealize.ShloMosaic Idealize.ShloMosaic.ValueIdx

/-- Entry `(r, n)` of the combined matrix: the four weighted entries added left to right. -/
def mix (S : (⟨3, ![4, 4096, 4096]⟩ : Shape).Idx → EReal) (h : (⟨1, ![4]⟩ : Shape).Idx → EReal) (r n : Fin 4096) : EReal :=
  h (ix1 (0 : Fin 4)) * S (ix3 (0 : Fin 4) r n) + h (ix1 (1 : Fin 4)) * S (ix3 (1 : Fin 4) r n)
    + h (ix1 (2 : Fin 4)) * S (ix3 (2 : Fin 4) r n) + h (ix1 (3 : Fin 4)) * S (ix3 (3 : Fin 4) r n)

/-- Row `r`, column `d` of the combined matrix times `x`. -/
def filteredAt (x : (⟨2, ![4096, 256]⟩ : Shape).Idx → EReal) (S : (⟨3, ![4, 4096, 4096]⟩ : Shape).Idx → EReal)
    (h : (⟨1, ![4]⟩ : Shape).Idx → EReal) (r : Fin 4096) (d : Fin 256) : EReal :=
  ∑ n : Fin 4096, mix S h r n * x (ix2 n d)

/-- The whole output array. -/
def filtered (x : (⟨2, ![4096, 256]⟩ : Shape).Idx → EReal) (S : (⟨3, ![4, 4096, 4096]⟩ : Shape).Idx → EReal)
    (h : (⟨1, ![4]⟩ : Shape).Idx → EReal) : (⟨2, ![4096, 256]⟩ : Shape).Idx → EReal :=
  fun i => filteredAt x S h (i 0) (i 1)

theorem filtered_apply (x : (⟨2, ![4096, 256]⟩ : Shape).Idx → EReal) (S : (⟨3, ![4, 4096, 4096]⟩ : Shape).Idx → EReal)
    (h : (⟨1, ![4]⟩ : Shape).Idx → EReal) (i : (⟨2, ![4096, 256]⟩ : Shape).Idx) :
    filtered x S h i = ∑ n : Fin 4096, mix S h (i 0) n * x (ix2 n (i 1)) := rfl

end Cert.Filter

end
-- ==== Proof.KernelArray.lean ====
/-
  The kernel's output array after the run is the filter output of the argument arrays.

  The grid has 32 points; point `t` works on the band of rows `128 t … 128 t + 127`. It reads the whole 1 × 4 weight
  block (the weight vector with a leading unit axis, which a host reshape wrote before the launch), the band of all four
  matrices of the stack, and all of `x`, and writes back the band of the output. Entry `(p, q)` of what it writes is
  the sum over `a` of the weighted combination of the four matrices at `(128 t + p, a)` times `x (a, q)`: the filter output
  at row `128 t + p`, column `q`. The 32 bands tile the 4096 rows, so the array ends as the filter output everywhere.
-/
import proofs.«171024_g45509473469006_cont_8to1_b_1896_15_alg».proof.Proof.Gen.KernelIdeal.Value
import proofs.«171024_g45509473469006_cont_8to1_b_1896_15_alg».proof.Proof.BodyAt
import proofs.«171024_g45509473469006_cont_8to1_b_1896_15_alg».proof.Proof.Filter
import Idealize.ShloMosaic.Lib.StableHlo.Run
import Idealize.ShloMosaic.Lib.ValueLayout

noncomputable section

namespace Cert.KernelIdeal.KernelArray

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-! ## The weight block the region finds -/

/-- Before the launch a host reshape writes the weight vector into a 1 × 4 buffer; entry `(u, k)` of it is weight `k`. -/
theorem weight_entry (c : Dev nD) (u : Fin 1) (k : Fin 4) :
    V m c main_call0_v0 (ix2 u k) = (m ((c : Thread nD τ).loc main_arg2)) (ix1 k) := by
  have e : (V m c main_call0_v0 : S1x4.Idx → EReal) = shapeCast S1x4 (m ((c : Thread nD τ).loc main_arg2)) shapeCasts_S4_S1x4 := by
    dsimp only [Gen.V, Gen.hostOps0]; after_results; rfl
  exact (congrFun e (ix2 u k)).trans (shapeCast_a_1a_apply _ _ u k)

/-! ## The index maps over the grid -/

/-- The weight block and `x` are the same block at every point; the stack's band and the output's band are band `t`. -/
theorem index_maps : ∀ t : Fin cfg0.N,
    win0_0.index t (0 : Fin 2) = 0 ∧ win0_0.index t (1 : Fin 2) = 0
    ∧ win0_1.index t (0 : Fin 3) = 0 ∧ win0_1.index t (1 : Fin 3) = t.val ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## What a point writes back -/

/-- Point `t` writes back band `t` of the filter output of the argument arrays. -/
theorem written_back (c : Dev nD) (t : Fin cfg0.N) :
    (dats m 0 c).flushed 3 t = ((cfg0.win 3).blk t).view.read (Elt Ideal)
      (Cert.Filter.filtered (m ((c : Thread nD τ).loc main_arg0)) (m ((c : Thread nD τ).loc main_arg1)) (m ((c : Thread nD τ).loc main_arg2))) := by
  rw [Cert.KernelIdeal.Value.flushed3]
  unfold out0_3
  rw [View.canon_unit_zero zero_offsets]
  obtain ⟨e0, e1, e2, e3, e4, e5, e6, e7, e8⟩ := index_maps t
  funext j
  obtain ⟨p, q, rfl⟩ : ∃ (p : Fin 128) (q : Fin 256), j = ix2 p q := ⟨j 0, j 1, eq_ix2 j⟩
  set i : S4096x256.Idx := ((cfg0.win 3).blk t).view.emb (ix2 p q) with hi
  show k0_pay1 (F := Ideal) (View.ld (iblk m c 0 t) r0_0) (View.ld (iblk m c 1 t) r0_1) (View.ld (iblk m c 0 t) r0_2)
      (View.ld (iblk m c 1 t) r0_3) (View.ld (iblk m c 0 t) r0_4) (View.ld (iblk m c 1 t) r0_5)
      (View.ld (iblk m c 0 t) r0_6) (View.ld (iblk m c 1 t) r0_7) (View.ld (iblk m c 2 t) r0_8) (ix2 p q)
    = Cert.Filter.filtered (m ((c : Thread nD τ).loc main_arg0)) (m ((c : Thread nD τ).loc main_arg1)) (m ((c : Thread nD τ).loc main_arg2)) i
  refine (Cert.KernelIdeal.BodyAt.pay_at _ _ _ _ _ _ _ _ _ p q).trans ?_
  rw [Cert.Filter.filtered_apply]
  refine Finset.sum_congr rfl fun a _ => ?_

  have hw0 : View.ld (iblk m c 0 t) r0_0 (ix2 (0 : Fin 1) (0 : Fin 1)) = (m ((c : Thread nD τ).loc main_arg2)) (ix1 (0 : Fin 4)) := by
    show V m c main_call0_v0 (((cfg0.win 0).blk t).view.emb (r0_0.idx (ix2 (0 : Fin 1) (0 : Fin 1)))) = _
    have e : ((cfg0.win 0).blk t).view.emb (r0_0.idx (ix2 (0 : Fin 1) (0 : Fin 1))) = ix2 (0 : Fin 1) (0 : Fin 4) := by
      funext a; apply Fin.ext
      match a with
      | ⟨0, _⟩ => show win0_0.index t (0 : Fin 2) * 1 + 1 * (0 + 1 * 0) = 0; omega
      | ⟨1, _⟩ => show win0_0.index t (1 : Fin 2) * 4 + 1 * (0 + 1 * 0) = 0; omega
    rw [e]
    exact weight_entry m c (0 : Fin 1) (0 : Fin 4)
  have hw1 : View.ld (iblk m c 0 t) r0_2 (ix2 (0 : Fin 1) (0 : Fin 1)) = (m ((c : Thread nD τ).loc main_arg2)) (ix1 (1 : Fin 4)) := by
    show V m c main_call0_v0 (((cfg0.win 0).blk t).view.emb (r0_2.idx (ix2 (0 : Fin 1) (0 : Fin 1)))) = _
    have e : ((cfg0.win 0).blk t).view.emb (r0_2.idx (ix2 (0 : Fin 1) (0 : Fin 1))) = ix2 (0 : Fin 1) (1 : Fin 4) := by
      funext a; apply Fin.ext
      match a with
      | ⟨0, _⟩ => show win0_0.index t (0 : Fin 2) * 1 + 1 * (0 + 1 * 0) = 0; omega
      | ⟨1, _⟩ => show win0_0.index t (1 : Fin 2) * 4 + 1 * (1 + 1 * 0) = 1; omega
    rw [e]
    exact weight_entry m c (0 : Fin 1) (1 : Fin 4)
  have hw2 : View.ld (iblk m c 0 t) r0_4 (ix2 (0 : Fin 1) (0 : Fin 1)) = (m ((c : Thread nD τ).loc main_arg2)) (ix1 (2 : Fin 4)) := by
    show V m c main_call0_v0 (((cfg0.win 0).blk t).view.emb (r0_4.idx (ix2 (0 : Fin 1) (0 : Fin 1)))) = _
    have e : ((cfg0.win 0).blk t).view.emb (r0_4.idx (ix2 (0 : Fin 1) (0 : Fin 1))) = ix2 (0 : Fin 1) (2 : Fin 4) := by
      funext a; apply Fin.ext
      match a with
      | ⟨0, _⟩ => show win0_0.index t (0 : Fin 2) * 1 + 1 * (0 + 1 * 0) = 0; omega
      | ⟨1, _⟩ => show win0_0.index t (1 : Fin 2) * 4 + 1 * (2 + 1 * 0) = 2; omega
    rw [e]
    exact weight_entry m c (0 : Fin 1) (2 : Fin 4)
  have hw3 : View.ld (iblk m c 0 t) r0_6 (ix2 (0 : Fin 1) (0 : Fin 1)) = (m ((c : Thread nD τ).loc main_arg2)) (ix1 (3 : Fin 4)) := by
    show V m c main_call0_v0 (((cfg0.win 0).blk t).view.emb (r0_6.idx (ix2 (0 : Fin 1) (0 : Fin 1)))) = _
    have e : ((cfg0.win 0).blk t).view.emb (r0_6.idx (ix2 (0 : Fin 1) (0 : Fin 1))) = ix2 (0 : Fin 1) (3 : Fin 4) := by
      funext a; apply Fin.ext
      match a with
      | ⟨0, _⟩ => show win0_0.index t (0 : Fin 2) * 1 + 1 * (0 + 1 * 0) = 0; omega
      | ⟨1, _⟩ => show win0_0.index t (1 : Fin 2) * 4 + 1 * (3 + 1 * 0) = 3; omega
    rw [e]
    exact weight_entry m c (0 : Fin 1) (3 : Fin 4)
  have hs0 : View.ld (iblk m c 1 t) r0_1 (ix3 (0 : Fin 1) p a) = (m ((c : Thread nD τ).loc main_arg1)) (ix3 (0 : Fin 4) (i 0) a) := by
    show V m c main_arg1 (((cfg0.win 1).blk t).view.emb (r0_1.idx (ix3 (0 : Fin 1) p a))) = _
    rw [V_main_arg1]
    refine congrArg _ (funext fun b => Fin.ext ?_)
    match b with
    | ⟨0, _⟩ => show win0_1.index t (0 : Fin 3) * 4 + 1 * (0 + 1 * 0) = 0; omega
    | ⟨1, _⟩ => show win0_1.index t (1 : Fin 3) * 128 + 1 * (0 + 1 * p.val) = win0_3.index t (0 : Fin 2) * 128 + 1 * p.val; omega
    | ⟨2, _⟩ => show win0_1.index t (2 : Fin 3) * 4096 + 1 * (0 + 1 * a.val) = a.val; omega
  have hs1 : View.ld (iblk m c 1 t) r0_3 (ix3 (0 : Fin 1) p a) = (m ((c : Thread nD τ).loc main_arg1)) (ix3 (1 : Fin 4) (i 0) a) := by
    show V m c main_arg1 (((cfg0.win 1).blk t).view.emb (r0_3.idx (ix3 (0 : Fin 1) p a))) = _
    rw [V_main_arg1]
    refine congrArg _ (funext fun b => Fin.ext ?_)
    match b with
    | ⟨0, _⟩ => show win0_1.index t (0 : Fin 3) * 4 + 1 * (1 + 1 * 0) = 1; omega
    | ⟨1, _⟩ => show win0_1.index t (1 : Fin 3) * 128 + 1 * (0 + 1 * p.val) = win0_3.index t (0 : Fin 2) * 128 + 1 * p.val; omega
    | ⟨2, _⟩ => show win0_1.index t (2 : Fin 3) * 4096 + 1 * (0 + 1 * a.val) = a.val; omega
  have hs2 : View.ld (iblk m c 1 t) r0_5 (ix3 (0 : Fin 1) p a) = (m ((c : Thread nD τ).loc main_arg1)) (ix3 (2 : Fin 4) (i 0) a) := by
    show V m c main_arg1 (((cfg0.win 1).blk t).view.emb (r0_5.idx (ix3 (0 : Fin 1) p a))) = _
    rw [V_main_arg1]
    refine congrArg _ (funext fun b => Fin.ext ?_)
    match b with
    | ⟨0, _⟩ => show win0_1.index t (0 : Fin 3) * 4 + 1 * (2 + 1 * 0) = 2; omega
    | ⟨1, _⟩ => show win0_1.index t (1 : Fin 3) * 128 + 1 * (0 + 1 * p.val) = win0_3.index t (0 : Fin 2) * 128 + 1 * p.val; omega
    | ⟨2, _⟩ => show win0_1.index t (2 : Fin 3) * 4096 + 1 * (0 + 1 * a.val) = a.val; omega
  have hs3 : View.ld (iblk m c 1 t) r0_7 (ix3 (0 : Fin 1) p a) = (m ((c : Thread nD τ).loc main_arg1)) (ix3 (3 : Fin 4) (i 0) a) := by
    show V m c main_arg1 (((cfg0.win 1).blk t).view.emb (r0_7.idx (ix3 (0 : Fin 1) p a))) = _
    rw [V_main_arg1]
    refine congrArg _ (funext fun b => Fin.ext ?_)
    match b with
    | ⟨0, _⟩ => show win0_1.index t (0 : Fin 3) * 4 + 1 * (3 + 1 * 0) = 3; omega
    | ⟨1, _⟩ => show win0_1.index t (1 : Fin 3) * 128 + 1 * (0 + 1 * p.val) = win0_3.index t (0 : Fin 2) * 128 + 1 * p.val; omega
    | ⟨2, _⟩ => show win0_1.index t (2 : Fin 3) * 4096 + 1 * (0 + 1 * a.val) = a.val; omega
  have hx : View.ld (iblk m c 2 t) r0_8 (ix2 a q) = (m ((c : Thread nD τ).loc main_arg0)) (ix2 a (i 1)) := by
    show V m c main_arg0 (((cfg0.win 2).blk t).view.emb (r0_8.idx (ix2 a q))) = _
    rw [V_main_arg0]
    refine congrArg _ (funext fun b => Fin.ext ?_)
    match b with
    | ⟨0, _⟩ => show win0_2.index t (0 : Fin 2) * 4096 + 1 * (0 + 1 * a.val) = a.val; omega
    | ⟨1, _⟩ => show win0_2.index t (1 : Fin 2) * 256 + 1 * (0 + 1 * q.val) = win0_3.index t (1 : Fin 2) * 256 + 1 * q.val; omega
  rw [hw0, hw1, hw2, hw3, hs0, hs1, hs2, hs3, hx]
  rfl

/-! ## The bands tile the array -/

/-- An index of the array is in point `t`'s band iff each coordinate is in the band's range on its axis. -/
theorem mem_band (t : Fin cfg0.N) (i : S4096x256.Idx) :
    i ∈ ((cfg0.win 3).blk t).view.set ↔ ∀ a : Fin 2, win0_3.index t a * S128x256.size a ≤ (i a).val ∧ (i a).val < win0_3.index t a * S128x256.size a + S128x256.size a := by
  show i ∈ ((View.whole main_v0).slice (win0_3.rect t)).set ↔ _
  rw [View.set_slice_whole, Rect.mem_set_unit]
  exact Iff.rfl

/-- Row `r` lies in the band of point `r / 128`, and every point writes its band back. -/
theorem bands_cover (i : S4096x256.Idx) :
    ∃ t : Fin cfg0.N, (cfg0.win 3).flush t = true ∧ i ∈ ((cfg0.win 3).blk t).view.set := by
  have h0 : (i 0).val < 4096 := (i 0).isLt
  have h1 : (i 1).val < 256 := (i 1).isLt
  have hN : (i 0).val / 128 < cfg0.N := by show _ < grid0.N; rw [N_0]; omega
  refine ⟨⟨(i 0).val / 128, hN⟩, flush0_3 _, ?_⟩
  obtain ⟨-, -, -, -, -, -, -, e7, e8⟩ := index_maps ⟨(i 0).val / 128, hN⟩
  rw [mem_band]
  intro a
  match a with
  | ⟨0, _⟩ => show win0_3.index ⟨(i 0).val / 128, hN⟩ (0 : Fin 2) * 128 ≤ (i 0).val ∧ (i 0).val < win0_3.index ⟨(i 0).val / 128, hN⟩ (0 : Fin 2) * 128 + 128; simp only [] at e7; omega
  | ⟨1, _⟩ => show win0_3.index ⟨(i 0).val / 128, hN⟩ (1 : Fin 2) * 256 ≤ (i 1).val ∧ (i 1).val < win0_3.index ⟨(i 0).val / 128, hN⟩ (1 : Fin 2) * 256 + 256; omega

/-! ## The array after the run -/

/-- The output array ends as the filter output of the argument arrays. -/
theorem final_array (c : Dev nD) :
    (dats m 0 c).arrAt 3 cfg0.N = Cert.Filter.filtered (m ((c : Thread nD τ).loc main_arg0)) (m ((c : Thread nD τ).loc main_arg1)) (m ((c : Thread nD τ).loc main_arg2)) :=
  (dats m 0 c).arrAt_eq_of_cover 3 _ (fun t _ => written_back m c t) (bands_cover)

/-- The kernel's run: the result array at the filter output, the arguments unchanged. -/
theorem run : θ_run defs (onTc (τ := τ) (main (F := Ideal))) ⟨m, fun _ => 0, ρ⟩ fun r => ∀ c : Dev nD,
      r.2.mem ((c : Thread nD τ).loc main_v0) = Cert.Filter.filtered (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_array m c), (h c).2⟩)
    (Cert.KernelIdeal.Value.run_blocks m ρ)

end Cert.KernelIdeal.KernelArray

end
-- ==== Proof.RefArray.lean ====
/-
  The reference's result is the filter output.

  The reference builds the combined matrix `H` by starting from a zero matrix and adding, one after the other, weight
  `k` (a scalar sliced out of the weight vector and broadcast) times matrix `k` of the stack, then multiplies `H` by
  `x`. Read at an entry, `H (r, n)` is `0 + h 0 * S (0, r, n) + h 1 * S (1, r, n) + h 2 * S (2, r, n) + h 3 * S (3, r, n)`,
  and the leading zero drops out (`0 + a = a` holds for every extended real, infinite ones included). The product is
  the sum over the shared index of `H (r, n) * x (n, d)`.
-/
import proofs.«171024_g45509473469006_cont_8to1_b_1896_15_alg».proof.Proof.Gen.ReferenceIdeal.Read
import proofs.«171024_g45509473469006_cont_8to1_b_1896_15_alg».proof.Proof.Filter

noncomputable section

namespace Cert.ReferenceIdeal.RefArray

open Cert.ReferenceIdeal Cert.ReferenceIdeal.Read Idealize.ShloMosaic Idealize.ShloMosaic.ValueIdx

/-- A one-entry vector cast to a scalar holds that entry. -/
theorem cast_to_scalar {α : Type} (y : S1.Idx → α) (h : S1.ShapeCasts S_) (j : S_.Idx) :
    shapeCast S_ y h j = y (ix1 (0 : Fin 1)) :=
  shapeCast_apply y h j (ix1 (0 : Fin 1)) (by
    rw [Shape.rowMajor_val_one]
    show (0 : Nat) = (Shape.rowMajorPi _ j).val
    exact (Shape.rowMajorPi_zero _ j).symm)

/-! ## The weights -/

/-- Weight 0, sliced out of the weight vector, cast to a scalar and broadcast: the same number at every entry. -/
theorem weight0 (x2 : (⟨S4, .f32⟩ : BufTy).Contents (Elt Ideal)) (i : S4096x4096.Idx) :
    val_main_v7 (F := Ideal) x2 i = x2 (ix1 (0 : Fin 4)) := by
  rw [val_main_v7_apply]
  unfold val_main_v4
  rw [cast_to_scalar, val_main_v3_apply]
  refine congrArg x2 (funext fun a => Fin.ext ?_)
  match a with
  | ⟨0, _⟩ => rfl

/-- Weight 1, sliced out of the weight vector, cast to a scalar and broadcast: the same number at every entry. -/
theorem weight1 (x2 : (⟨S4, .f32⟩ : BufTy).Contents (Elt Ideal)) (i : S4096x4096.Idx) :
    val_main_v14 (F := Ideal) x2 i = x2 (ix1 (1 : Fin 4)) := by
  rw [val_main_v14_apply]
  unfold val_main_v11
  rw [cast_to_scalar, val_main_v10_apply]
  refine congrArg x2 (funext fun a => Fin.ext ?_)
  match a with
  | ⟨0, _⟩ => rfl

/-- Weight 2, sliced out of the weight vector, cast to a scalar and broadcast: the same number at every entry. -/
theorem weight2 (x2 : (⟨S4, .f32⟩ : BufTy).Contents (Elt Ideal)) (i : S4096x4096.Idx) :
    val_main_v21 (F := Ideal) x2 i = x2 (ix1 (2 : Fin 4)) := by
  rw [val_main_v21_apply]
  unfold val_main_v18
  rw [cast_to_scalar, val_main_v17_apply]
  refine congrArg x2 (funext fun a => Fin.ext ?_)
  match a with
  | ⟨0, _⟩ => rfl

/-- Weight 3, sliced out of the weight vector, cast to a scalar and broadcast: the same number at every entry. -/
theorem weight3 (x2 : (⟨S4, .f32⟩ : BufTy).Contents (Elt Ideal)) (i : S4096x4096.Idx) :
    val_main_v28 (F := Ideal) x2 i = x2 (ix1 (3 : Fin 4)) := by
  rw [val_main_v28_apply]
  unfold val_main_v25
  rw [cast_to_scalar, val_main_v24_apply]
  refine congrArg x2 (funext fun a => Fin.ext ?_)
  match a with
  | ⟨0, _⟩ => rfl

/-! ## The matrices of the stack -/

/-- Matrix 0 of the stack, sliced out and with its unit axis dropped, at `(r, n)`. -/
theorem slab0 (x1 : (⟨S4x4096x4096, .f32⟩ : BufTy).Contents (Elt Ideal)) (r n : Fin 4096) :
    val_main_v6 (F := Ideal) x1 (ix2 r n) = x1 (ix3 (0 : Fin 4) r n) := by
  rw [val_main_v6_apply, val_main_v5_apply]
  refine congrArg x1 (funext fun a => Fin.ext ?_)
  have hr : r.val < 4096 := r.isLt
  have hn : n.val < 4096 := n.isLt
  match a with
  | ⟨0, _⟩ => rfl
  | ⟨1, _⟩ => show (r.val * 4096 + n.val) / 4096 % 4096 = r.val; omega
  | ⟨2, _⟩ => show (r.val * 4096 + n.val) % 4096 = n.val; omega

/-- Matrix 1 of the stack, sliced out and with its unit axis dropped, at `(r, n)`. -/
theorem slab1 (x1 : (⟨S4x4096x4096, .f32⟩ : BufTy).Contents (Elt Ideal)) (r n : Fin 4096) :
    val_main_v13 (F := Ideal) x1 (ix2 r n) = x1 (ix3 (1 : Fin 4) r n) := by
  rw [val_main_v13_apply, val_main_v12_apply]
  refine congrArg x1 (funext fun a => Fin.ext ?_)
  have hr : r.val < 4096 := r.isLt
  have hn : n.val < 4096 := n.isLt
  match a with
  | ⟨0, _⟩ => rfl
  | ⟨1, _⟩ => show (r.val * 4096 + n.val) / 4096 % 4096 = r.val; omega
  | ⟨2, _⟩ => show (r.val * 4096 + n.val) % 4096 = n.val; omega

/-- Matrix 2 of the stack, sliced out and with its unit axis dropped, at `(r, n)`. -/
theorem slab2 (x1 : (⟨S4x4096x4096, .f32⟩ : BufTy).Contents (Elt Ideal)) (r n : Fin 4096) :
    val_main_v20 (F := Ideal) x1 (ix2 r n) = x1 (ix3 (2 : Fin 4) r n) := by
  rw [val_main_v20_apply, val_main_v19_apply]
  refine congrArg x1 (funext fun a => Fin.ext ?_)
  have hr : r.val < 4096 := r.isLt
  have hn : n.val < 4096 := n.isLt
  match a with
  | ⟨0, _⟩ => rfl
  | ⟨1, _⟩ => show (r.val * 4096 + n.val) / 4096 % 4096 = r.val; omega
  | ⟨2, _⟩ => show (r.val * 4096 + n.val) % 4096 = n.val; omega

/-- Matrix 3 of the stack, sliced out and with its unit axis dropped, at `(r, n)`. -/
theorem slab3 (x1 : (⟨S4x4096x4096, .f32⟩ : BufTy).Contents (Elt Ideal)) (r n : Fin 4096) :
    val_main_v27 (F := Ideal) x1 (ix2 r n) = x1 (ix3 (3 : Fin 4) r n) := by
  rw [val_main_v27_apply, val_main_v26_apply]
  refine congrArg x1 (funext fun a => Fin.ext ?_)
  have hr : r.val < 4096 := r.isLt
  have hn : n.val < 4096 := n.isLt
  match a with
  | ⟨0, _⟩ => rfl
  | ⟨1, _⟩ => show (r.val * 4096 + n.val) / 4096 % 4096 = r.val; omega
  | ⟨2, _⟩ => show (r.val * 4096 + n.val) % 4096 = n.val; omega

/-! ## The combined matrix and the product -/

/-- The accumulated matrix at `(r, n)` is the weighted combination: the zero it starts from adds nothing. -/
theorem combined_at (x1 : (⟨S4x4096x4096, .f32⟩ : BufTy).Contents (Elt Ideal)) (x2 : (⟨S4, .f32⟩ : BufTy).Contents (Elt Ideal))
    (r n : Fin 4096) : val_main_v30 (F := Ideal) x1 x2 (ix2 r n) = Cert.Filter.mix x1 x2 r n := by
  rw [val_main_v30_apply, val_main_v23_apply, val_main_v16_apply, val_main_v9_apply, val_main_v8_apply,
    val_main_v15_apply, val_main_v22_apply, val_main_v29_apply, val_main_v2_apply, val_main_cst_apply,
    weight0, weight1, weight2, weight3, slab0, slab1, slab2, slab3]
  show Ideal.ofBits .f32 0x00000000#32 + x2 (ix1 (0 : Fin 4)) * x1 (ix3 (0 : Fin 4) r n)
      + x2 (ix1 (1 : Fin 4)) * x1 (ix3 (1 : Fin 4) r n) + x2 (ix1 (2 : Fin 4)) * x1 (ix3 (2 : Fin 4) r n)
      + x2 (ix1 (3 : Fin 4)) * x1 (ix3 (3 : Fin 4) r n) = _
  rw [Ideal.ofBits_zero_f32, zero_add]
  rfl

/-- The reference's result array is the filter output of its three arguments. -/
theorem result_eq (x0 : (⟨S4096x256, .f32⟩ : BufTy).Contents (Elt Ideal)) (x1 : (⟨S4x4096x4096, .f32⟩ : BufTy).Contents (Elt Ideal))
    (x2 : (⟨S4, .f32⟩ : BufTy).Contents (Elt Ideal)) :
    val_main_v31 (F := Ideal) x0 x1 x2 = Cert.Filter.filtered x0 x1 x2 := by
  funext i
  obtain ⟨r, d, rfl⟩ : ∃ (r : Fin 4096) (d : Fin 256), i = ix2 r d := ⟨i 0, i 1, eq_ix2 i⟩
  show val_main_v31 (F := Ideal) x0 x1 x2 (ix2 r d) = Cert.Filter.filteredAt x0 x1 x2 r d
  rw [val_main_v31_apply]
  unfold Cert.Filter.filteredAt
  refine Finset.sum_congr rfl fun k _ => ?_
  have el : lidx_main_v31 (ix2 r d) k = ix2 r k := funext fun a => Fin.ext (by
    match a with
    | ⟨0, _⟩ => rfl
    | ⟨1, _⟩ => rfl)
  have er : ridx_main_v31 (ix2 r d) k = ix2 k d := funext fun a => Fin.ext (by
    match a with
    | ⟨0, _⟩ => rfl
    | ⟨1, _⟩ => rfl)
  rw [el, er, combined_at]

end Cert.ReferenceIdeal.RefArray

end
-- ==== Proof.lean ====
/-
  The kernel computes a graph filter: with `S` a stack of four 4096 × 4096 matrices, `h` four weights and `x` a
  4096 × 256 matrix, the output is `(h 0 · S 0 + h 1 · S 1 + h 2 · S 2 + h 3 · S 3) · x`. The kernel does it band by band
  (32 bands of 128 rows): it forms the weighted combination of the band of the four matrices and multiplies it by `x`.
  The reference accumulates the combined matrix starting from a zero matrix and multiplies once.

  On the extended reals the two are the same function of the arguments, entry by entry: both are the sum over the shared
  index `n` of the combined entry `H (r, n)` times `x (n, d)`, and the combined entries differ only by the reference's
  leading `0 +`, which changes nothing (no finiteness of the inputs is needed for that). The function is
  `Cert.Filter.filtered`; the kernel's array after its run is read band by band off the generated frame run, the
  reference's off its generated run.

  Nothing was rewritten when the kernel was idealized, so that conjunct is trivial; the three frames are the generated
  ones (the reference's is its run with the result dropped).
-/
import proofs.«171024_g45509473469006_cont_8to1_b_1896_15_alg».proof.Defs
import proofs.«171024_g45509473469006_cont_8to1_b_1896_15_alg».proof.Proof.Gen.Kernel
import proofs.«171024_g45509473469006_cont_8to1_b_1896_15_alg».proof.Proof.Gen.Kernel.Skeleton
import proofs.«171024_g45509473469006_cont_8to1_b_1896_15_alg».proof.Proof.Gen.Kernel.Launch
import proofs.«171024_g45509473469006_cont_8to1_b_1896_15_alg».proof.Proof.Gen.Kernel.Points
import proofs.«171024_g45509473469006_cont_8to1_b_1896_15_alg».proof.Proof.Gen.Kernel.Frame
import proofs.«171024_g45509473469006_cont_8to1_b_1896_15_alg».proof.Proof.Gen.KernelIdeal
import proofs.«171024_g45509473469006_cont_8to1_b_1896_15_alg».proof.Proof.Gen.KernelIdeal.Skeleton
import proofs.«171024_g45509473469006_cont_8to1_b_1896_15_alg».proof.Proof.Gen.KernelIdeal.Launch
import proofs.«171024_g45509473469006_cont_8to1_b_1896_15_alg».proof.Proof.Gen.KernelIdeal.Points
import proofs.«171024_g45509473469006_cont_8to1_b_1896_15_alg».proof.Proof.Gen.KernelIdeal.Frame
import proofs.«171024_g45509473469006_cont_8to1_b_1896_15_alg».proof.Proof.Gen.ReferenceIdeal
import proofs.«171024_g45509473469006_cont_8to1_b_1896_15_alg».proof.Proof.Gen.Pre_finite_inputs
import proofs.«171024_g45509473469006_cont_8to1_b_1896_15_alg».proof.Proof.Gen.KernelIdeal.Value
import proofs.«171024_g45509473469006_cont_8to1_b_1896_15_alg».proof.Proof.Gen.ReferenceIdeal.Run
import proofs.«171024_g45509473469006_cont_8to1_b_1896_15_alg».proof.Proof.Gen.ReferenceIdeal.Read
import proofs.«171024_g45509473469006_cont_8to1_b_1896_15_alg».proof.Proof.KernelArray
import proofs.«171024_g45509473469006_cont_8to1_b_1896_15_alg».proof.Proof.RefArray
import Idealize.ShloMosaic.Adequacy
import Idealize.ShloMosaic.Init

noncomputable section

namespace Cert.Proof

open Idealize.ShloMosaic Idealize.ShloMosaic.TcCoe Idealize.SL.Sem

theorem frame_kernel [Cert.Kernel.Facts] [Cert.Pre_finite_inputs.Facts] : Cert.frame_Kernel :=
  fun m ρ _ => Cert.Kernel.Gen.frame m ρ

theorem frame_kernel_ideal [Cert.KernelIdeal.Facts] [Cert.Pre_finite_inputs.Facts] : Cert.frame_KernelIdeal :=
  fun m ρ _ => Cert.KernelIdeal.Gen.frame m ρ

theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both programs, run from memories that agree on the arguments, end with the filter output of those arguments. -/
theorem same_result [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceIdeal.RefArray.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, same_result⟩

end Cert.Proof

end
